-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x25x256 : Shape := ⟨3, ![8192, 25, 256]⟩
abbrev S25x256x256 : Shape := ⟨3, ![25, 256, 256]⟩
abbrev S25x256 : Shape := ⟨2, ![25, 256]⟩
abbrev S256 : Shape := ⟨1, ![256]⟩
abbrev S5x256 : Shape := ⟨2, ![5, 256]⟩
abbrev S5 : Shape := ⟨1, ![5]⟩
abbrev S_ : Shape := ⟨0, ![]⟩

class Facts : Prop where
  bcast_S_S8192x25x256 : S_.BroadcastsInDim S8192x25x256 (![] : Fin 0 → Fin S8192x25x256.rank)
  reducesTo_S8192x25x256_S_d0_1_2 : S8192x25x256.ReducesTo [0, 1, 2] S_
  h_S_ : 0 < S_.numel
  bcast_S_S25x256x256 : S_.BroadcastsInDim S25x256x256 (![] : Fin 0 → Fin S25x256x256.rank)
  reducesTo_S25x256x256_S_d0_1_2 : S25x256x256.ReducesTo [0, 1, 2] S_
  bcast_S_S25x256 : S_.BroadcastsInDim S25x256 (![] : Fin 0 → Fin S25x256.rank)
  reducesTo_S25x256_S_d0_1 : S25x256.ReducesTo [0, 1] S_
  bcast_S_S256 : S_.BroadcastsInDim S256 (![] : Fin 0 → Fin S256.rank)
  reducesTo_S256_S_d0 : S256.ReducesTo [0] S_
  bcast_S_S5x256 : S_.BroadcastsInDim S5x256 (![] : Fin 0 → Fin S5x256.rank)
  reducesTo_S5x256_S_d0_1 : S5x256.ReducesTo [0, 1] S_
  bcast_S_S5 : S_.BroadcastsInDim S5 (![] : Fin 0 → Fin S5.rank)
  reducesTo_S5_S_d0 : S5.ReducesTo [0] S_

variable [Facts]

def fn_part1 {F : FTy → Type} [FloatOps F] (main_arg4 : FVec F S256 .f32) (main_arg5 : FVec F S5x256 .f32) (main_arg6 : FVec F S5 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S5x256 .f32 := Host.absf main_arg5
  let main_cst_8 : FVec F S_ .f32 := constant S_ .f32 0x7F800000#32
  let main_v25 : FVec F S5x256 .f32 := broadcastInDim S5x256 ![] bcast_S_S5x256 main_cst_8
  let main_v26 : IVec S5x256 1 := cmpf .olt main_v24 main_v25
  let main_c_9 : IVec S_ 1 := constantI S_ 1 1#1
  let main_v27 : IVec S_ 1 := (fun x v => Host.reduce IntOp.andi x v reducesTo_S5x256_S_d0_1 h_S_) main_v26 main_c_9
  let main_v28 : IVec S_ 1 := andi main_v23 main_v27
  let main_v29 : FVec F S5 .f32 := Host.absf main_arg6
  let main_cst_10 : FVec F S_ .f32 := constant S_ .f32 0x7F800000#32
  let main_v30 : FVec F S5 .f32 := broadcastInDim S5 ![] bcast_S_S5 main_cst_10
  let main_v31 : IVec S5 1 := cmpf .olt main_v29 main_v30
  let main_c_11 : IVec S_ 1 := constantI S_ 1 1#1
  let main_v32 : IVec S_ 1 := (fun x v => Host.reduce IntOp.andi x v reducesTo_S5_S_d0 h_S_) main_v31 main_c_11
  let main_v33 : IVec S_ 1 := andi main_v28 main_v32
  main_v33

def fn {F : FTy → Type} [FloatOps F] (main_arg0 : FVec F S8192x25x256 .f32) (main_arg1 : FVec F S25x256x256 .f32) (main_arg2 : FVec F S25x256 .f32) (main_arg3 : FVec F S256 .f32) (main_arg4 : FVec F S256 .f32) (main_arg5 : FVec F S5x256 .f32) (main_arg6 : FVec F S5 .f32) : IVec S_ 1 :=
  let main_v0 : FVec F S8192x25x256 .f32 := Host.absf main_arg0
  let main_cst : FVec F S_ .f32 := constant S_ .f32 0x7F800000#32
  let main_v1 : FVec F S8192x25x256 .f32 := broadcastInDim S8192x25x256 ![] bcast_S_S8192x25x256 main_cst
  let main_v2 : IVec S8192x25x256 1 := cmpf .olt main_v0 main_v1
  let main_c : IVec S_ 1 := constantI S_ 1 1#1
  let main_v3 : IVec S_ 1 := (fun x v => Host.reduce IntOp.andi x v reducesTo_S8192x25x256_S_d0_1_2 h_S_) main_v2 main_c
  let main_v4 : FVec F S25x256x256 .f32 := Host.absf main_arg1
  let main_cst_0 : FVec F S_ .f32 := constant S_ .f32 0x7F800000#32
  let main_v5 : FVec F S25x256x256 .f32 := broadcastInDim S25x256x256 ![] bcast_S_S25x256x256 main_cst_0
  let main_v6 : IVec S25x256x256 1 := cmpf .olt main_v4 main_v5
  let main_c_1 : IVec S_ 1 := constantI S_ 1 1#1
  let main_v7 : IVec S_ 1 := (fun x v => Host.reduce IntOp.andi x v reducesTo_S25x256x256_S_d0_1_2 h_S_) main_v6 main_c_1
  let main_v8 : IVec S_ 1 := andi main_v3 main_v7
  let main_v9 : FVec F S25x256 .f32 := Host.absf main_arg2
  let main_cst_2 : FVec F S_ .f32 := constant S_ .f32 0x7F800000#32
  let main_v10 : FVec F S25x256 .f32 := broadcastInDim S25x256 ![] bcast_S_S25x256 main_cst_2
  let main_v11 : IVec S25x256 1 := cmpf .olt main_v9 main_v10
  let main_c_3 : IVec S_ 1 := constantI S_ 1 1#1
  let main_v12 : IVec S_ 1 := (fun x v => Host.reduce IntOp.andi x v reducesTo_S25x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_v13 main_v16
-- ==== Kernel.lean ====
abbrev S8192x25x256 : Shape := ⟨3, ![8192, 25, 256]⟩
abbrev S25x256x256 : Shape := ⟨3, ![25, 256, 256]⟩
abbrev S25x256 : Shape := ⟨2, ![25, 256]⟩
abbrev S256 : Shape := ⟨1, ![256]⟩
abbrev S5x256 : Shape := ⟨2, ![5, 256]⟩
abbrev S5 : Shape := ⟨1, ![5]⟩
abbrev S_ : Shape := ⟨0, ![]⟩
abbrev S8192x25x5 : Shape := ⟨3, ![8192, 25, 5]⟩
abbrev S128x25x256 : Shape := ⟨3, ![128, 25, 256]⟩
abbrev S128x25x5 : Shape := ⟨3, ![128, 25, 5]⟩
abbrev S1x25x256 : Shape := ⟨3, ![1, 25, 256]⟩
abbrev S128x25 : Shape := ⟨2, ![128, 25]⟩
abbrev S128x25x1 : Shape := ⟨3, ![128, 25, 1]⟩
abbrev S1x1x256 : Shape := ⟨3, ![1, 1, 256]⟩
abbrev S3200x256 : Shape := ⟨2, ![3200, 256]⟩
abbrev S256x5 : Shape := ⟨2, ![256, 5]⟩
abbrev S3200x5 : Shape := ⟨2, ![3200, 5]⟩
abbrev S1x5 : Shape := ⟨2, ![1, 5]⟩

abbrev nBuf : Space → Nat
  | .hbm => 10
  | .vmem => 10
  | .smem => 0
  | _ => 0

abbrev bufTy : (tb : Table) → Fin (tcTables nBuf tb) → BufTy
  | .hbm, ⟨0, _⟩ => ⟨S8192x25x256, .f32⟩
  | .hbm, ⟨1, _⟩ => ⟨S25x256x256, .f32⟩
  | .hbm, ⟨2, _⟩ => ⟨S25x256, .f32⟩
  | .hbm, ⟨3, _⟩ => ⟨S256, .f32⟩
  | .hbm, ⟨4, _⟩ => ⟨S256, .f32⟩
  | .hbm, ⟨5, _⟩ => ⟨S5x256, .f32⟩
  | .hbm, ⟨6, _⟩ => ⟨S5, .f32⟩
  | .hbm, ⟨7, _⟩ => ⟨S_, .f32⟩
  | .hbm, ⟨8, _⟩ => ⟨S25x256, .f32⟩
  | .hbm, ⟨9, _⟩ => ⟨S8192x25x5, .f32⟩
  | .local _ .vmem, ⟨0, _⟩ => ⟨S128x25x256, .f32⟩
  | .local _ .vmem, ⟨1, _⟩ => ⟨S128x25x256, .f32⟩
  | .local _ .vmem, ⟨2, _⟩ => ⟨S25x256, .f32⟩
  | .local _ .vmem, ⟨3, _⟩ => ⟨S25x256, .f32⟩
  | .local _ .vmem, ⟨4, _⟩ => ⟨S256, .f32⟩
  | .local _ .vmem, ⟨5, _⟩ => ⟨S256, .f32⟩
  | .local _ .vmem, ⟨6, _⟩ => ⟨S5x256, .f32⟩
  | .local _ .vmem, ⟨7, _⟩ => ⟨S5, .f32⟩
  | .local _ .vmem, ⟨8, _⟩ => ⟨S128x25x5, .f32⟩
  | .local _ .vmem, ⟨9, _⟩ => ⟨S128x25x5, .f32⟩
  | _, _ => ⟨S8192x25x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x25x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S25x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S25x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S5 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x25x5 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  reducesTo_S25x256x256_S25x256_d2 : S25x256x256.ReducesTo [2] S25x256
  h_S_ : 0 < S_.numel
  inb_S128x25x256_S128x25x256_0_0_0 : ∀ a, (![0, 0, 0] : Fin 3 → Nat) a + S128x25x256.size a ≤ S128x25x256.size a
  h_S128x25x256 : 0 < S128x25x256.numel
  inb_S25x256_S25x256_0_0 : ∀ a, (![0, 0] : Fin 2 → Nat) a + S25x256.size a ≤ S25x256.size a
  h_S25x256 : 0 < S25x256.numel
  shapeCasts_S25x256_S25x256 : S25x256.ShapeCasts S25x256
  shapeCasts_S25x256_S1x25x256 : S25x256.ShapeCasts S1x25x256
  broadcasts_S1x25x256_S128x25x256 : S1x25x256.Broadcasts S128x25x256
  reduces_S128x25x256_S128x25 : S128x25x256.Reduces [2] S128x25
  shapeCasts_S128x25_S128x25x1 : S128x25.ShapeCasts S128x25x1
  broadcasts_S128x25x1_S128x25x256 : S128x25x1.Broadcasts S128x25x256
  inb_S256_S256_0 : ∀ a, (![0] : Fin 1 → Nat) a + S256.size a ≤ S256.size a
  h_S256 : 0 < S256.numel
  shapeCasts_S256_S1x1x256 : S256.ShapeCasts S1x1x256
  broadcasts_S1x1x256_S128x25x256 : S1x1x256.Broadcasts S128x25x256
  shapeCasts_S128x25x256_S3200x256 : S128x25x256.ShapeCasts S3200x256
  inb_S5x256_S5x256_0_0 : ∀ a, (![0, 0] : Fin 2 → Nat) a + S5x256.size a ≤ S5x256.size a
  h_S5x256 : 0 < S5x256.numel
  inb_S5_S5_0 : ∀ a, (![0] : Fin 1 → Nat) a + S5.size a ≤ S5.size a
  h_S5 : 0 < S5.numel
  bitsLt_bf16_f32 : FTy.bits .bf16 < FTy.bits .f32
  transposes_S5x256_p1_0_S256x5 : S5x256.Transposes [1, 0] S256x5
  shapeCasts_S5_S1x5 : S5.ShapeCasts S1x5
  broadcasts_S1x5_S3200x5 : S1x5.Broadcasts S3200x5
  shapeCasts_S3200x5_S128x25x5 : S3200x5.ShapeCasts S128x25x5
  inb_S128x25x5_S128x25x5_0_0_0 : ∀ a, (![0, 0, 0] : Fin 3 → Nat) a + S128x25x5.size a ≤ S128x25x5.size a
  h_S128x25x5 : 0 < S128x25x5.numel
  dot_S3200x256_S256x5_S3200x5_1_0_0_1_n_n_wf : DotDims.WF S3200x256 S256x5 S3200x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x25x256.size a ≤ S8192x25x256.size a
  hwx0_0 : ∀ i : grid0.Coords, EltTy.bits .f32 = 32 ∨ (Rect.block (s := S8192x25x256) S128x25x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S25x256.size a ≤ S25x256.size a
  hwx0_1 : ∀ i : grid0.Coords, EltTy.bits .f32 = 32 ∨ (Rect.block (s := S25x256) S25x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S25x256.size a ≤ S25x256.size a
  hwx0_2 : ∀ i : grid0.Coords, EltTy.bits .f32 = 32 ∨ (Rect.block (s := S25x256) S25x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S5x256.size a ≤ S5x256.size a
  hwx0_5 : ∀ i : grid0.Coords, EltTy.bits .f32 = 32 ∨ (Rect.block (s := S5x256) S5x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S5.size a ≤ S5.size a
  hwx0_6 : ∀ i : grid0.Coords, EltTy.bits .f32 = 32 ∨ (Rect.block (s := S5) S5.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x25x5.size a ≤ S8192x25x5.size a
  hwx0_7 : ∀ i : grid0.Coords, EltTy.bits .f32 = 32 ∨ (Rect.block (s := S8192x25x5) S128x25x5.size (cc0_transform_7 i) (hinb0_7 i)).WholeWords (EltTy.packing .f32)

variable [Facts₀]

def dot_S3200x256_S256x5_S3200x5_1_0_0_1_n_n : DotDims S3200x256 S256x5 S3200x5 where
  lhsContracting := [1]
  rhsContracting := [0]
  lhsNonContracting := [0]
  rhsNonContracting := [1]
  lhsBatch := []
  rhsBatch := []
  wf := dot_S3200x256_S256x5_S3200x5_1_0_0_1_n_n_wf

abbrev win0_0 : Pipeline.Window sig grid0 :=
  Pipeline.Window.ofSpec (Memref.whole main_arg0) S128x25x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S25x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S25x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S5x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S5.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S128x25x5.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x25x256 : Shape := ⟨3, ![8192, 25, 256]⟩
abbrev S25x256x256 : Shape := ⟨3, ![25, 256, 256]⟩
abbrev S25x256 : Shape := ⟨2, ![25, 256]⟩
abbrev S256 : Shape := ⟨1, ![256]⟩
abbrev S5x256 : Shape := ⟨2, ![5, 256]⟩
abbrev S5 : Shape := ⟨1, ![5]⟩
abbrev S_ : Shape := ⟨0, ![]⟩
abbrev S1x25x256 : Shape := ⟨3, ![1, 25, 256]⟩
abbrev S8192x25 : Shape := ⟨2, ![8192, 25]⟩
abbrev S8192x25x1 : Shape := ⟨3, ![8192, 25, 1]⟩
abbrev S1x1x256 : Shape := ⟨3, ![1, 1, 256]⟩
abbrev S8192x25x5 : Shape := ⟨3, ![8192, 25, 5]⟩
abbrev S1x1x5 : Shape := ⟨3, ![1, 1, 5]⟩

abbrev nBuf : Space → Nat
  | .hbm => 52
  | .vmem => 0
  | .smem => 0
  | _ => 0

abbrev bufTy : (tb : Table) → Fin (tcTables nBuf tb) → BufTy
  | .hbm, ⟨0, _⟩ => ⟨S8192x25x256, .f32⟩
  | .hbm, ⟨1, _⟩ => ⟨S25x256x256, .f32⟩
  | .hbm, ⟨2, _⟩ => ⟨S25x256, .f32⟩
  | .hbm, ⟨3, _⟩ => ⟨S256, .f32⟩
  | .hbm, ⟨4, _⟩ => ⟨S256, .f32⟩
  | .hbm, ⟨5, _⟩ => ⟨S5x256, .f32⟩
  | .hbm, ⟨6, _⟩ => ⟨S5, .f32⟩
  | .hbm, ⟨7, _⟩ => ⟨S_, .f32⟩
  | .hbm, ⟨8, _⟩ => ⟨S25x256, .f32⟩
  | .hbm, ⟨9, _⟩ => ⟨S1x25x256, .f32⟩
  | .hbm, ⟨10, _⟩ => ⟨S8192x25x256, .f32⟩
  | .hbm, ⟨11, _⟩ => ⟨S8192x25x256, .f32⟩
  | .hbm, ⟨12, _⟩ => ⟨S1x25x256, .f32⟩
  | .hbm, ⟨13, _⟩ => ⟨S8192x25x256, .f32⟩
  | .hbm, ⟨14, _⟩ => ⟨S8192x25x256, .f32⟩
  | .hbm, ⟨15, _⟩ => ⟨S_, .f32⟩
  | .hbm, ⟨16, _⟩ => ⟨S8192x25, .f32⟩
  | .hbm, ⟨17, _⟩ => ⟨S8192x25x1, .f32⟩
  | .hbm, ⟨18, _⟩ => ⟨S_, .f32⟩
  | .hbm, ⟨19, _⟩ => ⟨S8192x25x1, .f32⟩
  | .hbm, ⟨20, _⟩ => ⟨S8192x25x1, .f32⟩
  | .hbm, ⟨21, _⟩ => ⟨S8192x25x256, .f32⟩
  | .hbm, ⟨22, _⟩ => ⟨S8192x25x256, .f32⟩
  | .hbm, ⟨23, _⟩ => ⟨S8192x25x256, .f32⟩
  | .hbm, ⟨24, _⟩ => ⟨S_, .f32⟩
  | .hbm, ⟨25, _⟩ => ⟨S8192x25, .f32⟩
  | .hbm, ⟨26, _⟩ => ⟨S8192x25x1, .f32⟩
  | .hbm, ⟨27, _⟩ => ⟨S_, .f32⟩
  | .hbm, ⟨28, _⟩ => ⟨S8192x25x1, .f32⟩
  | .hbm, ⟨29, _⟩ => ⟨S8192x25x1, .f32⟩
  | .hbm, ⟨30, _⟩ => ⟨S8192x25x256, .f32⟩
  | .hbm, ⟨31, _⟩ => ⟨S8192x25x256, .f32⟩
  | .hbm, ⟨32, _⟩ => ⟨S_, .f32⟩
  | .hbm, ⟨33, _⟩ => ⟨S8192x25x1, .f32⟩
  | .hbm, ⟨34, _⟩ => ⟨S8192x25x1, .f32⟩
  | .hbm, ⟨35, _⟩ => ⟨S8192x25x1, .f32⟩
  | .hbm, ⟨36, _⟩ => ⟨S8192x25x256, .f32⟩
  | .hbm, ⟨37, _⟩ => ⟨S8192x25x256, .f32⟩
  | .hbm, ⟨38, _⟩ => ⟨S1x1x256, .f32⟩
  | .hbm, ⟨39, _⟩ => ⟨S8192x25x256, .f32⟩
  | .hbm, ⟨40, _⟩ => ⟨S8192x25x256, .f32⟩
  | .hbm, ⟨41, _⟩ => ⟨S1x1x256, .f32⟩
  | .hbm, ⟨42, _⟩ => ⟨S8192x25x256, .f32⟩
  | .hbm, ⟨43, _⟩ => ⟨S8192x25x256, .f32⟩
  | .hbm, ⟨44, _⟩ => ⟨S8192x25x256, .f32⟩
  | .hbm, ⟨45, _⟩ => ⟨S_, .f32⟩
  | .hbm, ⟨46, _⟩ => ⟨S8192x25x256, .f32⟩
  | .hbm, ⟨47, _⟩ => ⟨S8192x25x256, .f32⟩
  | .hbm, ⟨48, _⟩ => ⟨S8192x25x5, .f32⟩
  | .hbm, ⟨49, _⟩ => ⟨S1x1x5, .f32⟩
  | .hbm, ⟨50, _⟩ => ⟨S8192x25x5, .f32⟩
  | .hbm, ⟨51, _⟩ => ⟨S8192x25x5, .f32⟩
  | _, _ => ⟨S8192x25x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_call0_cst : Ref sig .tc := ⟨.hbm, 45, rfl⟩
abbrev main_call0_v0 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]

class Facts₀ : Prop where
  reducesTo_S25x256x256_S25x256_d2 : S25x256x256.ReducesTo [2] S25x256
  h_S_ : 0 < S_.numel
  bcast_S25x256_S1x25x256_1_2 : S25x256.BroadcastsInDim S1x25x256 (![1, 2] : Fin 2 → Fin S1x25x256.rank)
  bcast_S1x25x256_S8192x25x256_0_1_2 : S1x25x256.BroadcastsInDim S8192x25x256 (![0, 1, 2] : Fin 3 → Fin S8192x25x256.rank)
  reducesTo_S8192x25x256_S8192x25_d2 : S8192x25x256.ReducesTo [2] S8192x25
  bcast_S8192x25_S8192x25x1_0_1 : S8192x25.BroadcastsInDim S8192x25x1 (![0, 1] : Fin 2 → Fin S8192x25x1.rank)
  bcast_S_S8192x25x1 : S_.BroadcastsInDim S8192x25x1 (![] : Fin 0 → Fin S8192x25x1.rank)
  bcast_S8192x25x1_S8192x25x256_0_1_2 : S8192x25x1.BroadcastsInDim S8192x25x256 (![0, 1, 2] : Fin 3 → Fin S8192x25x256.rank)
  bcast_S256_S1x1x256_2 : S256.BroadcastsInDim S1x1x256 (![2] : Fin 1 → Fin S1x1x256.rank)
  bcast_S1x1x256_S8192x25x256_0_1_2 : S1x1x256.BroadcastsInDim S8192x25x256 (![0, 1, 2] : Fin 3 → Fin S8192x25x256.rank)
  bcast_S_S8192x25x256 : S_.BroadcastsInDim S8192x25x256 (![] : Fin 0 → Fin S8192x25x256.rank)
  bcast_S5_S1x1x5_2 : S5.BroadcastsInDim S1x1x5 (![2] : Fin 1 → Fin S1x1x5.rank)
  bcast_S1x1x5_S8192x25x5_0_1_2 : S1x1x5.BroadcastsInDim S8192x25x5 (![0, 1, 2] : Fin 3 → Fin S8192x25x5.rank)
  dot_S8192x25x256_S5x256_S8192x25x5_2_1_01_0_n_n_wf : DotDims.WF S8192x25x256 S5x256 S8192x25x5 [2] [1] [0, 1] [0] [] []

variable [Facts₀]

def dot_S8192x25x256_S5x256_S8192x25x5_2_1_01_0_n_n : DotDims S8192x25x256 S5x256 S8192x25x5 where
  lhsContracting := [2]
  rhsContracting := [1]
  lhsNonContracting := [0, 1]
  rhsNonContracting := [0]
  lhsBatch := []
  rhsBatch := []
  wf := dot_S8192x25x256_S5x256_S8192x25x5_2_1_01_0_n_n_wf

class Facts : Prop extends Facts₀ where

variable [Facts]
-- ==== Proof.RowSpec.lean ====
/-
  The specification both programs are read against.

  One row of 256 channels goes through: the affine map `f · w + b` channel by channel; a normalisation of the row
  (subtract the row's mean, multiply by the reciprocal square root of the mean of the squared deviations plus a small
  constant); a second affine map `· g + β`; the input added back and the result clipped below at zero; and last a
  product of the row with a row of the final weight matrix, plus one bias entry. The mean is the sum divided by 256.

  The whole result array is that function at every (batch, point, output) triple; the channel weights `w` of point
  `p` are the sums of the rows of the weight tensor's slice `p`.

  The three constants are kept as the float words the two programs share: they are never evaluated.
-/
import Idealize.ShloMosaic.Lib.ValueIdx
import Idealize.ShloMosaic.PureOps.Ideal.Laws

noncomputable section

namespace Cert.RowSpec

open Idealize.ShloMosaic Idealize.ShloMosaic.ValueIdx

/-- The divisor 256, the small constant under the root, and the clip level zero, as the words denote them. -/
abbrev w256 : EReal := Ideal.ofBits .f32 0x43800000#32
abbrev wEps : EReal := Ideal.ofBits .f32 0x3727C5AC#32
abbrev wZero : EReal := Ideal.ofBits .f32 0x00000000#32

/-- The first affine map, channel by channel. -/
def affine (f w b : Fin 256 → EReal) (c : Fin 256) : EReal := f c * w c + b c

/-- The mean of a row. -/
def mean (x : Fin 256 → EReal) : EReal := Ideal.div (∑ k : Fin 256, x k) w256

/-- A row's deviation from its mean. -/
def centred (x : Fin 256 → EReal) (c : Fin 256) : EReal := x c - mean x

/-- The normalised row. -/
def normed (x : Fin 256 → EReal) (c : Fin 256) : EReal :=
  centred x c * Ideal.rsqrt (mean (fun k => centred x k * centred x k) + wEps)

/-- The row before the final product: input plus the re-scaled normalised row, clipped below at zero. -/
def hidden (f w b g be : Fin 256 → EReal) (c : Fin 256) : EReal :=
  max (f c + (normed (affine f w b) c * g c + be c)) wZero

/-- One entry of the result. -/
def out (f w b g be lw : Fin 256 → EReal) (lb : EReal) : EReal :=
  (∑ c : Fin 256, hidden f w b g be c * lw c) + lb

/-- The channel weights of point `p`: the row sums of slice `p` of the weight tensor. -/
def rowsum (W : (⟨3, ![25, 256, 256]⟩ : Shape).Idx → EReal) (p : Fin 25) (c : Fin 256) : EReal :=
  ∑ k : Fin 256, W (ix3 p c k)

/-- The result at (batch, point, output). -/
def outAt (X : (⟨3, ![8192, 25, 256]⟩ : Shape).Idx → EReal) (W : (⟨3, ![25, 256, 256]⟩ : Shape).Idx → EReal)
    (B : (⟨2, ![25, 256]⟩ : Shape).Idx → EReal) (Ga Be : (⟨1, ![256]⟩ : Shape).Idx → EReal)
    (LW : (⟨2, ![5, 256]⟩ : Shape).Idx → EReal) (LB : (⟨1, ![5]⟩ : Shape).Idx → EReal)
    (b : Fin 8192) (p : Fin 25) (j : Fin 5) : EReal :=
  out (fun k => X (ix3 b p k)) (rowsum W p) (fun k => B (ix2 p k)) (fun k => Ga (ix1 k)) (fun k => Be (ix1 k))
    (fun k => LW (ix2 j k)) (LB (ix1 j))

/-- The whole result array. -/
def G (X : (⟨3, ![8192, 25, 256]⟩ : Shape).Idx → EReal) (W : (⟨3, ![25, 256, 256]⟩ : Shape).Idx → EReal)
    (B : (⟨2, ![25, 256]⟩ : Shape).Idx → EReal) (Ga Be : (⟨1, ![256]⟩ : Shape).Idx → EReal)
    (LW : (⟨2, ![5, 256]⟩ : Shape).Idx → EReal) (LB : (⟨1, ![5]⟩ : Shape).Idx → EReal) :
    (⟨3, ![8192, 25, 5]⟩ : Shape).Idx → EReal :=
  fun i => outAt X W B Ga Be LW LB (i 0) (i 1) (i 2)

end Cert.RowSpec

end
-- ==== Proof.TileLayout.lean ====
/-
  How a tile of 128 batch rows is re-laid inside the kernel body, read at coordinates.

  A tile has shape [128, 25, 256] (batch row `a`, point `p`, channel `c`). The body repeats small tables along the
  axes they lack, keeps a per-(a, p) scalar in a trailing unit axis, sums along the channel axis, flattens (a, p) to
  the row `25·a + p` of a [3200, ·] matrix and back, and transposes the final weight matrix. Each lemma says which
  entry of the operand one entry of the re-laid array is.
-/
import Idealize.ShloMosaic.Lib.ValueIdx
import Idealize.ShloMosaic.Lib.ValueLayout
import Idealize.ShloMosaic.Lib.Pipeline.Value
import Idealize.ShloMosaic.PureOps.Ideal.Laws

noncomputable section

namespace Cert.TileLayout

open Idealize.ShloMosaic Idealize.ShloMosaic.ValueIdx

variable {α : Type}

/-- Row `25·a + p` of the flattened tile. -/
abbrev flat (a : Fin 128) (p : Fin 25) : Fin 3200 := ⟨25 * a.val + p.val, by have := a.isLt; have := p.isLt; omega⟩

/-- A [25, 256] table, viewed [1, 25, 256] and repeated along the 128 batch rows, reads (p, c) at (a, p, c). -/
theorem table_rep (v : (⟨2, ![25, 256]⟩ : Shape).Idx → α)
    (h1 : (⟨2, ![25, 256]⟩ : Shape).ShapeCasts ⟨3, ![1, 25, 256]⟩)
    (h2 : (⟨3, ![1, 25, 256]⟩ : Shape).Broadcasts ⟨3, ![128, 25, 256]⟩) (a : Fin 128) (p : Fin 25) (c : Fin 256) :
    broadcastTo ⟨3, ![128, 25, 256]⟩ (shapeCast ⟨3, ![1, 25, 256]⟩ v h1) h2 (ix3 a p c) = v (ix2 p c) := by
  refine (broadcastTo_apply _ h2 (ix3 a p c) (ix3 (0 : Fin 1) p c) (fun x => ?_)).trans ?_
  · match x with
    | ⟨0, _⟩ => rfl
    | ⟨1, _⟩ => rfl
    | ⟨2, _⟩ => rfl
  · refine shapeCast_apply v h1 (ix3 (0 : Fin 1) p c) (ix2 p c) ?_
    rw [Shape.rowMajor_val_two, Shape.rowMajor_val_three]
    show p.val * 256 + c.val = ((0 : ℕ) * 25 + p.val) * 256 + c.val
    omega

/-- A [256] channel vector, viewed [1, 1, 256] and repeated along batch rows and points, reads c at (a, p, c). -/
theorem chan_rep (v : (⟨1, ![256]⟩ : Shape).Idx → α)
    (h1 : (⟨1, ![256]⟩ : Shape).ShapeCasts ⟨3, ![1, 1, 256]⟩)
    (h2 : (⟨3, ![1, 1, 256]⟩ : Shape).Broadcasts ⟨3, ![128, 25, 256]⟩) (a : Fin 128) (p : Fin 25) (c : Fin 256) :
    broadcastTo ⟨3, ![128, 25, 256]⟩ (shapeCast ⟨3, ![1, 1, 256]⟩ v h1) h2 (ix3 a p c) = v (ix1 c) := by
  refine (broadcastTo_apply _ h2 (ix3 a p c) (ix3 (0 : Fin 1) (0 : Fin 1) c) (fun x => ?_)).trans ?_
  · match x with
    | ⟨0, _⟩ => rfl
    | ⟨1, _⟩ => rfl
    | ⟨2, _⟩ => rfl
  · refine shapeCast_apply v h1 (ix3 (0 : Fin 1) (0 : Fin 1) c) (ix1 c) ?_
    rw [Shape.rowMajor_val_one, Shape.rowMajor_val_three]
    show c.val = ((0 : ℕ) * 1 + 0) * 256 + c.val
    omega

/-- A per-(a, p) column [128, 25, 1] repeated along the channels reads (a, p, 0) at (a, p, c). -/
theorem col_rep (u : (⟨3, ![128, 25, 1]⟩ : Shape).Idx → α)
    (h : (⟨3, ![128, 25, 1]⟩ : Shape).Broadcasts ⟨3, ![128, 25, 256]⟩) (a : Fin 128) (p : Fin 25) (c : Fin 256) :
    broadcastTo ⟨3, ![128, 25, 256]⟩ u h (ix3 a p c) = u (ix3 a p (0 : Fin 1)) :=
  broadcastTo_apply _ h (ix3 a p c) (ix3 a p (0 : Fin 1)) (fun x => match x with
    | ⟨0, _⟩ => rfl
    | ⟨1, _⟩ => rfl
    | ⟨2, _⟩ => rfl)

/-- A [128, 25] array given a trailing unit axis reads (a, p) at (a, p, 0). -/
theorem col_of (v : (⟨2, ![128, 25]⟩ : Shape).Idx → α)
    (h : (⟨2, ![128, 25]⟩ : Shape).ShapeCasts ⟨3, ![128, 25, 1]⟩) (a : Fin 128) (p : Fin 25) :
    shapeCast ⟨3, ![128, 25, 1]⟩ v h (ix3 a p (0 : Fin 1)) = v (ix2 a p) := by
  refine shapeCast_apply v h (ix3 a p (0 : Fin 1)) (ix2 a p) ?_
  rw [Shape.rowMajor_val_two, Shape.rowMajor_val_three]
  show a.val * 25 + p.val = (a.val * 25 + p.val) * 1 + 0
  omega

/-- The sum of a tile along its channels, at (a, p): the reduction starts from the zero word, which is the sum's
    neutral element. -/
theorem chan_sum (v : FVec Ideal ⟨3, ![128, 25, 256]⟩ .f32)
    (h : (⟨3, ![128, 25, 256]⟩ : Shape).Reduces [2] ⟨2, ![128, 25]⟩) (hφ : FKind.Formats .f32)
    (hacc : (0x00000000#32 : BitVec 32) = 0x00000000#32) (a : Fin 128) (p : Fin 25) :
    multiReduction .add [2] ⟨2, ![128, 25]⟩ v 0x00000000#32 h hφ hacc (ix2 a p) = ∑ k : Fin 256, v (ix3 a p k) := by
  refine (Ideal.multiReduction_add_single v 0x00000000#32 h hφ hacc (ix2 a p)).trans ?_
  refine Finset.sum_congr rfl fun k _ => congrArg v (funext fun x => Fin.ext ?_)
  match x with
  | ⟨0, _⟩ => rfl
  | ⟨1, _⟩ => rfl
  | ⟨2, _⟩ => rfl

/-- The tile flattened to [3200, 256] reads (a, p, c) at (25·a + p, c). -/
theorem rows_of (v : (⟨3, ![128, 25, 256]⟩ : Shape).Idx → α)
    (h : (⟨3, ![128, 25, 256]⟩ : Shape).ShapeCasts ⟨2, ![3200, 256]⟩) (a : Fin 128) (p : Fin 25) (c : Fin 256) :
    shapeCast ⟨2, ![3200, 256]⟩ v h (ix2 (flat a p) c) = v (ix3 a p c) := by
  refine shapeCast_apply v h (ix2 (flat a p) c) (ix3 a p c) ?_
  rw [Shape.rowMajor_val_two, Shape.rowMajor_val_three]
  show (a.val * 25 + p.val) * 256 + c.val = (25 * a.val + p.val) * 256 + c.val
  omega

/-- A [3200, 5] matrix cut back to [128, 25, 5] reads (25·a + p, j) at (a, p, j). -/
theorem rows_back (v : (⟨2, ![3200, 5]⟩ : Shape).Idx → α)
    (h : (⟨2, ![3200, 5]⟩ : Shape).ShapeCasts ⟨3, ![128, 25, 5]⟩) (a : Fin 128) (p : Fin 25) (j : Fin 5) :
    shapeCast ⟨3, ![128, 25, 5]⟩ v h (ix3 a p j) = v (ix2 (flat a p) j) := by
  refine shapeCast_apply v h (ix3 a p j) (ix2 (flat a p) j) ?_
  rw [Shape.rowMajor_val_two, Shape.rowMajor_val_three]
  show (25 * a.val + p.val) * 5 + j.val = (a.val * 25 + p.val) * 5 + j.val
  omega

/-- A [5] vector, viewed [1, 5] and repeated down the 3200 rows, reads j at (r, j). -/
theorem bias_rep (v : (⟨1, ![5]⟩ : Shape).Idx → α)
    (h1 : (⟨1, ![5]⟩ : Shape).ShapeCasts ⟨2, ![1, 5]⟩)
    (h2 : (⟨2, ![1, 5]⟩ : Shape).Broadcasts ⟨2, ![3200, 5]⟩) (r : Fin 3200) (j : Fin 5) :
    broadcastTo ⟨2, ![3200, 5]⟩ (shapeCast ⟨2, ![1, 5]⟩ v h1) h2 (ix2 r j) = v (ix1 j) := by
  refine (broadcastTo_apply _ h2 (ix2 r j) (ix2 (0 : Fin 1) j) (fun x => ?_)).trans ?_
  · match x with
    | ⟨0, _⟩ => rfl
    | ⟨1, _⟩ => rfl
  · refine shapeCast_apply v h1 (ix2 (0 : Fin 1) j) (ix1 j) ?_
    rw [Shape.rowMajor_val_one, Shape.rowMajor_val_two]
    show j.val = (0 : ℕ) * 5 + j.val
    omega

end Cert.TileLayout

end
-- ==== Proof.LibPlainProduct.lean ====
/-
  A matrix product of an `M × K` array by a `K × N` array, read one entry at a time.

  The entry at row `r` and column `j` is `∑ k, lhs (r, k) · rhs (k, j)` on the extended reals: the left operand is
  read along its row, the right operand down its column, and the same sum is obtained whether the product is
  accumulated into a zero array or has no accumulator at all. Nothing depends on the three extents.
-/
import Idealize.ShloMosaic.Lib.ValueIdx
import Idealize.ShloMosaic.PureOps.Ideal.Laws

noncomputable section

namespace Cert.LibPlainProduct

open Idealize.ShloMosaic Idealize.ShloMosaic.ValueIdx

variable {M K N : ℕ}

/-- The left operand is read on the result's row. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from fun h => nomatch h),
    dif_pos (show (0 : Fin (⟨2, ![M, K]⟩ : Shape).rank) ∈ (DotDims.plain M K N).lhsNonContracting from List.mem_singleton.mpr rfl)]
  rfl

/-- Its column is the position in the contraction. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the position in the contraction. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand is read on the result's column. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from fun h => nomatch h),
    dif_pos (show (1 : Fin (⟨2, ![K, N]⟩ : Shape).rank) ∈ (DotDims.plain M K N).rhsNonContracting from List.mem_singleton.mpr rfl)]
  rfl

/-- The sum over the contraction positions, re-indexed by the contracted coordinate `k : Fin K`: the operands are
    read at (r, k) and (k, j). -/
theorem sum_eq {φ₁ φ₂ : FTy} (lhs : FVec Ideal ⟨2, ![M, K]⟩ φ₁) (rhs : FVec Ideal ⟨2, ![K, N]⟩ φ₂) (r : Fin M) (j : Fin N) :
    (∑ q : (DotDims.plain M K N).contr.Idx,
        lhs ((DotDims.plain M K N).lhsIdx (ix2 r j) q) * rhs ((DotDims.plain M K N).rhsIdx (ix2 r j) q))
      = ∑ k : Fin K, lhs (ix2 r k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r j) ((contrEquiv1 (DotDims.plain M K N) K rfl rfl).symm k) = ix2 r k :=
    funext fun a => Fin.ext (by
      match a with
      | ⟨0, _⟩ => exact lhs_row _ _
      | ⟨1, _⟩ => exact (lhs_col _ _).trans hk)
  have er : (DotDims.plain M K N).rhsIdx (ix2 r j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

/-- The product accumulated into a zero array, read at (r, j). The dimension numbers may be any record that IS the
    plain one. -/
theorem matmul_zero_apply {φ₁ φ₂ : FTy} (d : DotDims ⟨2, ![M, K]⟩ ⟨2, ![K, N]⟩ ⟨2, ![M, N]⟩)
    (hd : d = DotDims.plain M K N) (prec : Option ContractPrecision) (lhs : FVec Ideal ⟨2, ![M, K]⟩ φ₁)
    (rhs : FVec Ideal ⟨2, ![K, N]⟩ φ₂) (r : Fin M) (j : Fin N) :
    matmul d prec lhs rhs (constant (F := Ideal) ⟨2, ![M, N]⟩ .f32 0x00000000#32) (ix2 r j)
      = ∑ k : Fin K, lhs (ix2 r k) * rhs (ix2 k j) := by
  subst hd
  show FloatOps.matmul (DotDims.plain M K N) prec lhs rhs (constant ⟨2, ![M, N]⟩ .f32 0x00000000#32) (ix2 r j) = _
  rw [Ideal.matmul_constant_zero_apply]
  exact sum_eq lhs rhs r j

/-- The host's product with no accumulator, read at (r, j). -/
theorem dotGeneral_apply {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (r : Fin M) (j : Fin N) :
    FloatOps.dotGeneral d prec sched lhs rhs (ix2 r j) = ∑ k : Fin K, lhs (ix2 r k) * rhs (ix2 k j) := by
  subst hd
  rw [Ideal.dotGeneral_apply]
  exact sum_eq lhs rhs r j

end Cert.LibPlainProduct

end
-- ==== Proof.KernelTile.lean ====
/-
  What the kernel body computes on one tile, entry by entry.

  The body works on a tile of 128 batch rows. Read at Ideal, its first stretch leaves at row `25·a + p`, channel `c` of a
  [3200, 256] matrix the clipped row `RowSpec.hidden` of batch row `a`, point `p`; its second stretch multiplies that
  matrix by the transposed final weights, adds the bias and cuts the rows back to (a, p). Together: the entry at
  (a, p, j) of what the body stores is `RowSpec.out` of row (a, p) of the tile and row `j` of the final weights.
-/
import proofs.«172448_j59674275610776_1_alg».proof.Proof.Gen.KernelIdeal.Skeleton
import proofs.«172448_j59674275610776_1_alg».proof.Proof.RowSpec
import proofs.«172448_j59674275610776_1_alg».proof.Proof.TileLayout
import proofs.«172448_j59674275610776_1_alg».proof.Proof.LibPlainProduct

noncomputable section

namespace Cert.KernelIdeal.Tile

open Cert.KernelIdeal Cert.KernelIdeal.Gen Idealize.ShloMosaic Idealize.ShloMosaic.ValueIdx
open Cert.RowSpec Cert.TileLayout

/-- The body's product has the plain dimension numbers: rows by columns. -/
theorem dot_plain : dot_S3200x256_S256x5_S3200x5_1_0_0_1_n_n = DotDims.plain 3200 256 5 := rfl

/-- The first stretch: the clipped row, at row `25·a + p` and channel `c` of the flattened tile. -/
theorem hidden_apply (x0 : Vec Ideal S128x25x256 .f32) (x1 x2 : Vec Ideal S25x256 .f32) (x3 x4 : Vec Ideal S256 .f32)
    (a : Fin 128) (p : Fin 25) (c : Fin 256) :
    k0_pay2 (F := Ideal) x0 x1 x2 x3 x4 (ix2 (flat a p) c)
      = hidden (fun k => x0 (ix3 a p k)) (fun k => x1 (ix2 p k)) (fun k => x2 (ix2 p k)) (fun k => x3 (ix1 k))
          (fun k => x4 (ix1 k)) c := by
  unfold k0_pay2
  -- the entry of the flattened tile, through the pointwise operations and the repeated tables
  simp only [rows_of, maximumf_apply, addf_apply, mulf_apply, subf_apply, divf_apply, broadcast_apply, table_rep, chan_rep,
    col_rep, col_of, shapeCast_self, rsqrt]
  -- the two channel sums: of the affine row, and of its squared deviations
  rw [chan_sum, chan_sum]
  simp only [rows_of, maximumf_apply, addf_apply, mulf_apply, subf_apply, divf_apply, broadcast_apply, table_rep, chan_rep,
    col_rep, col_of, shapeCast_self, rsqrt]
  -- the mean inside each squared deviation
  rw [chan_sum]
  simp only [rows_of, maximumf_apply, addf_apply, mulf_apply, subf_apply, divf_apply, broadcast_apply, table_rep, chan_rep,
    col_rep, col_of, shapeCast_self, rsqrt]
  rfl

/-- The second stretch: the product with the transposed weights plus the bias, at (a, p, j). -/
theorem product_apply (v39 : FVec Ideal S3200x256 .f32) (v40 : Vec Ideal S5x256 .f32) (v41 : Vec Ideal S5 .f32)
    (a : Fin 128) (p : Fin 25) (j : Fin 5) :
    k0_pay1 (F := Ideal) v39 v40 v41 (ix3 a p j)
      = (∑ k : Fin 256, v39 (ix2 (flat a p) k) * v40 (ix2 j k)) + v41 (ix1 j) := by
  unfold k0_pay1
  rw [rows_back, addf_apply, bias_rep, LibPlainProduct.matmul_zero_apply _ dot_plain]
  refine congrArg (· + v41 (ix1 j)) (Finset.sum_congr rfl fun k _ => ?_)
  rw [truncf_apply, transpose_ix2_apply, truncf_apply]

/-- The body's stored value at (a, p, j). -/
theorem tile_apply (x0 : Vec Ideal S128x25x256 .f32) (x1 x2 : Vec Ideal S25x256 .f32) (x3 x4 : Vec Ideal S256 .f32)
    (x5 : Vec Ideal S5x256 .f32) (x6 : Vec Ideal S5 .f32) (a : Fin 128) (p : Fin 25) (j : Fin 5) :
    k0_pay1 (F := Ideal) (k0_pay2 (F := Ideal) x0 x1 x2 x3 x4) x5 x6 (ix3 a p j)
      = out (fun k => x0 (ix3 a p k)) (fun k => x1 (ix2 p k)) (fun k => x2 (ix2 p k)) (fun k => x3 (ix1 k))
          (fun k => x4 (ix1 k)) (fun k => x5 (ix2 j k)) (x6 (ix1 j)) := by
  rw [product_apply]
  unfold out
  simp only [hidden_apply]

end Cert.KernelIdeal.Tile

end
-- ==== Proof.KernelArray.lean ====
/-
  The kernel's result array as a whole.

  The grid has 64 points; point `t` works on batch rows `128·t … 128·t + 127`: its input tile is those rows of the
  first argument, the six small operands are staged whole at every point, and what it writes back is rows
  `128·t … 128·t + 127` of the result. The channel weights it is given are the row sums the host computes before the
  call. Entry (a, p, j) of the tile's result is the row function of RowSpec at batch row `128·t + a`, so every point
  writes its block of ONE array, the specification `RowSpec.G` of the arguments; the 64 blocks cover the array.
-/
import proofs.«172448_j59674275610776_1_alg».proof.Proof.Gen.KernelIdeal.Value
import proofs.«172448_j59674275610776_1_alg».proof.Proof.KernelTile
import Idealize.ShloMosaic.Lib.Pipeline.Value
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)
open Cert.RowSpec Cert.TileLayout

variable (m : (ℓ : Loc nD τ sig) → Buf (Elt Ideal) ℓ) (ρ : Dev nD → PrngReg)

/-- The specification at the arguments a memory holds. -/
abbrev result (c : Dev nD) : Buf (Elt Ideal) ((c : Thread nD τ).loc main_v1) :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- Batch row `128·t + a` of the whole array: row `a` of point `t`'s tile. -/
abbrev brow (t : Fin cfg0.N) (a : Fin 128) : Fin 8192 :=
  ⟨128 * t.val + a.val, by have h : t.val < 64 := lt_of_lt_of_eq t.isLt N_0; have := a.isLt; omega⟩

/-- The block indices over the grid: the tile and the result move with the point along the batch axis, the small
    operands stay at block zero. -/
theorem idx_facts : ∀ t : Fin cfg0.N,
    win0_0.index t (0 : Fin 3) = t.val ∧ win0_0.index t (1 : Fin 3) = 0 ∧ win0_0.index t (2 : Fin 3) = 0
    ∧ win0_7.index t (0 : Fin 3) = t.val ∧ win0_7.index t (1 : Fin 3) = 0 ∧ win0_7.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0 ∧ win0_4.index t (0 : Fin 1) = 0
    ∧ win0_5.index t (0 : Fin 2) = 0 ∧ win0_5.index t (1 : Fin 2) = 0
    ∧ win0_6.index t (0 : Fin 1) = 0 :=
  (by decide +kernel : ∀ t : Fin grid0.N, _)

/-! ## What each staged block holds -/

/-- The input tile at point `t` is batch rows `128·t …` of the first argument. -/
theorem tile_apply (c : Dev nD) (t : Fin cfg0.N) (a : Fin 128) (p : Fin 25) (k : Fin 256) :
    (iblk m c 0 t : Vec Ideal S128x25x256 .f32) (ix3 a p k)
      = (m ((c : Thread nD τ).loc main_arg0) : S8192x25x256.Idx → EReal) (ix3 (brow t a) p k) := by
  obtain ⟨e0, e1, e2, -⟩ := idx_facts t
  unfold iblk
  rw [View.read_apply]
  show V m c main_arg0 _ = _
  rw [V_main_arg0]
  refine congrArg _ (funext fun x => Fin.ext ?_)
  match x with
  | ⟨0, _⟩ => show win0_0.index t (0 : Fin 3) * 128 + 1 * a.val = 128 * t.val + a.val; rw [e0]; omega
  | ⟨1, _⟩ => show win0_0.index t (1 : Fin 3) * 25 + 1 * p.val = p.val; rw [e1]; omega
  | ⟨2, _⟩ => show win0_0.index t (2 : Fin 3) * 256 + 1 * k.val = k.val; rw [e2]; omega

/-- The channel weights staged at every point are the array the host wrote before the call. -/
theorem wts_apply (c : Dev nD) (t : Fin cfg0.N) (p : Fin 25) (k : Fin 256) :
    (iblk m c 1 t : Vec Ideal S25x256 .f32) (ix2 p k) = (V m c main_v0 : S25x256.Idx → EReal) (ix2 p k) := by
  obtain ⟨-, -, -, -, -, -, e0, e1, -⟩ := idx_facts t
  unfold iblk
  rw [View.read_apply]
  show V m c main_v0 _ = _
  refine congrArg _ (funext fun x => Fin.ext ?_)
  match x with
  | ⟨0, _⟩ => show win0_1.index t (0 : Fin 2) * 25 + 1 * p.val = p.val; rw [e0]; omega
  | ⟨1, _⟩ => show win0_1.index t (1 : Fin 2) * 256 + 1 * k.val = k.val; rw [e1]; omega

/-- The bias table staged at every point is the third argument. -/
theorem bias_apply (c : Dev nD) (t : Fin cfg0.N) (p : Fin 25) (k : Fin 256) :
    (iblk m c 2 t : Vec Ideal S25x256 .f32) (ix2 p k)
      = (m ((c : Thread nD τ).loc main_arg2) : S25x256.Idx → EReal) (ix2 p k) := by
  obtain ⟨-, -, -, -, -, -, -, -, e0, e1, -⟩ := idx_facts t
  unfold iblk
  rw [View.read_apply]
  show V m c main_arg2 _ = _
  rw [V_main_arg2]
  refine congrArg _ (funext fun x => Fin.ext ?_)
  match x with
  | ⟨0, _⟩ => show win0_2.index t (0 : Fin 2) * 25 + 1 * p.val = p.val; rw [e0]; omega
  | ⟨1, _⟩ => show win0_2.index t (1 : Fin 2) * 256 + 1 * k.val = k.val; rw [e1]; omega

/-- The two channel vectors staged at every point are the fourth and fifth arguments. -/
theorem gamma_apply (c : Dev nD) (t : Fin cfg0.N) (k : Fin 256) :
    (iblk m c 3 t : Vec Ideal S256 .f32) (ix1 k) = (m ((c : Thread nD τ).loc main_arg3) : S256.Idx → EReal) (ix1 k) := by
  obtain ⟨-, -, -, -, -, -, -, -, -, -, e0, -⟩ := idx_facts t
  unfold iblk
  rw [View.read_apply]
  show V m c main_arg3 _ = _
  rw [V_main_arg3]
  refine congrArg _ (funext fun x => Fin.ext ?_)
  match x with
  | ⟨0, _⟩ => show win0_3.index t (0 : Fin 1) * 256 + 1 * k.val = k.val; rw [e0]; omega

theorem beta_apply (c : Dev nD) (t : Fin cfg0.N) (k : Fin 256) :
    (iblk m c 4 t : Vec Ideal S256 .f32) (ix1 k) = (m ((c : Thread nD τ).loc main_arg4) : S256.Idx → EReal) (ix1 k) := by
  obtain ⟨-, -, -, -, -, -, -, -, -, -, -, e0, -⟩ := idx_facts t
  unfold iblk
  rw [View.read_apply]
  show V m c main_arg4 _ = _
  rw [V_main_arg4]
  refine congrArg _ (funext fun x => Fin.ext ?_)
  match x with
  | ⟨0, _⟩ => show win0_4.index t (0 : Fin 1) * 256 + 1 * k.val = k.val; rw [e0]; omega

/-- The final weights and bias staged at every point are the last two arguments. -/
theorem linw_apply (c : Dev nD) (t : Fin cfg0.N) (j : Fin 5) (k : Fin 256) :
    (iblk m c 5 t : Vec Ideal S5x256 .f32) (ix2 j k)
      = (m ((c : Thread nD τ).loc main_arg5) : S5x256.Idx → EReal) (ix2 j k) := by
  obtain ⟨-, -, -, -, -, -, -, -, -, -, -, -, e0, e1, -⟩ := idx_facts t
  unfold iblk
  rw [View.read_apply]
  show V m c main_arg5 _ = _
  rw [V_main_arg5]
  refine congrArg _ (funext fun x => Fin.ext ?_)
  match x with
  | ⟨0, _⟩ => show win0_5.index t (0 : Fin 2) * 5 + 1 * j.val = j.val; rw [e0]; omega
  | ⟨1, _⟩ => show win0_5.index t (1 : Fin 2) * 256 + 1 * k.val = k.val; rw [e1]; omega

theorem linb_apply (c : Dev nD) (t : Fin cfg0.N) (j : Fin 5) :
    (iblk m c 6 t : Vec Ideal S5 .f32) (ix1 j) = (m ((c : Thread nD τ).loc main_arg6) : S5.Idx → EReal) (ix1 j) := by
  obtain ⟨-, -, -, -, -, -, -, -, -, -, -, -, -, -, e0⟩ := idx_facts t
  unfold iblk
  rw [View.read_apply]
  show V m c main_arg6 _ = _
  rw [V_main_arg6]
  refine congrArg _ (funext fun x => Fin.ext ?_)
  match x with
  | ⟨0, _⟩ => show win0_6.index t (0 : Fin 1) * 5 + 1 * j.val = j.val; rw [e0]; omega

/-! ## The host's row sums -/

/-- Window 1's array, as the region finds it, is the host's sum of the weight tensor along its last axis. -/
theorem wsum_eq (c : Dev nD) :
    (V m c main_v0 : S25x256.Idx → EReal)
      = Host.reduceAdd (m ((c : Thread nD τ).loc main_arg1)) (constant (F := Ideal) S_ .f32 0x00000000#32)
          reducesTo_S25x256x256_S25x256_d2 h_S_ := by
  dsimp only [Gen.V, Gen.hostOps0]; after_results

/-- The host's sum along the last axis, started from the zero word, read at (p, k): the row sum of slice `p`, row `k`. -/
theorem reduce_apply (Wt : S25x256x256.Idx → EReal) (p : Fin 25) (k : Fin 256) :
    (Host.reduceAdd (F := Ideal) (φ := .f32) Wt (constant (F := Ideal) S_ .f32 0x00000000#32)
        reducesTo_S25x256x256_S25x256_d2 h_S_ : S25x256.Idx → EReal) (ix2 p k) = rowsum Wt p k := by
  simp only [Host.reduceAdd, Ideal.hostReduceAdd_def]
  rw [Ideal.hostReduceAdd_single reducesTo_S25x256x256_S25x256_d2 (by decide)]
  simp only [constant_apply, Ideal.ofBits_zero_f32, zero_add]
  unfold rowsum
  refine Finset.sum_congr rfl fun q _ => congrArg Wt (funext fun x => Fin.ext ?_)
  match x with
  | ⟨0, _⟩ => rfl
  | ⟨1, _⟩ => rfl
  | ⟨2, _⟩ => rfl

theorem wsum_apply (c : Dev nD) (p : Fin 25) (k : Fin 256) :
    (V m c main_v0 : S25x256.Idx → EReal) (ix2 p k) = rowsum (m ((c : Thread nD τ).loc main_arg1)) p k := by
  rw [wsum_eq]
  exact reduce_apply _ p k

/-! ## Every point writes its block of the specification -/

/-- The body's stored value at (a, p, j) of point `t`'s tile is the specification at batch row `128·t + a`. -/
theorem stored_apply (c : Dev nD) (t : Fin cfg0.N) (a : Fin 128) (p : Fin 25) (j : Fin 5) :
    k0_pay1 (F := Ideal) (k0_pay2 (F := Ideal) (iblk m c 0 t) (iblk m c 1 t) (iblk m c 2 t) (iblk m c 3 t) (iblk m c 4 t))
        (iblk m c 5 t) (iblk m c 6 t) (ix3 a p j)
      = outAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (brow t a) p j := by
  refine (Tile.tile_apply (iblk m c 0 t) (iblk m c 1 t) (iblk m c 2 t) (iblk m c 3 t) (iblk m c 4 t) (iblk m c 5 t)
    (iblk m c 6 t) a p j).trans ?_
  have hw : (fun k => (V m c main_v0 : S25x256.Idx → EReal) (ix2 p k)) = rowsum (m ((c : Thread nD τ).loc main_arg1)) p :=
    funext fun k => wsum_apply m c p k
  unfold outAt
  simp only [tile_apply, wts_apply, bias_apply, gamma_apply, beta_apply, linw_apply, linb_apply]
  rw [hw]

/-- WHAT POINT `t` WRITES BACK is block `t` of the specification: entry (a, p, j) of the block lies at batch row
    `128·t + a` of the array. -/
theorem flushed_eq (c : Dev nD) (t : Fin cfg0.N) :
    (dats m 0 c).flushed 7 t = ((cfg0.win 7).blk t).view.read (Elt Ideal) (result m c) := by
  obtain ⟨-, -, -, e0, e1, e2, -⟩ := idx_facts t
  rw [Value.flushed7]
  unfold out0_7
  rw [View.canon_unit_zero hz3]
  simp only [View.ld_unit_zero (S := S128x25x256) hz3, View.ld_unit_zero (S := S25x256) hz2, View.ld_unit_zero (S := S256) hz1,
    View.ld_unit_zero (S := S5x256) hz2, View.ld_unit_zero (S := S5) hz1]
  funext y
  have hy : (win0 7).xinj (grid0.coords t) y
      = ix3 (⟨(y 0).val, (y 0).isLt⟩ : Fin 128) (⟨(y 1).val, (y 1).isLt⟩ : Fin 25) (⟨(y 2).val, (y 2).isLt⟩ : Fin 5) :=
    funext fun x => Fin.ext (by match x with | ⟨0, _⟩ => rfl | ⟨1, _⟩ => rfl | ⟨2, _⟩ => rfl)
  rw [View.read_apply]
  show k0_pay1 (F := Ideal) (k0_pay2 (F := Ideal) (iblk m c 0 t) (iblk m c 1 t) (iblk m c 2 t) (iblk m c 3 t) (iblk m c 4 t))
      (iblk m c 5 t) (iblk m c 6 t) ((win0 7).xinj (grid0.coords t) y) = _
  rw [hy]
  refine (stored_apply m c t _ _ _).trans ?_
  have h0 : brow t ⟨(y 0).val, (y 0).isLt⟩ = (((View.whole main_v1).slice ((win0 7).rect t)).emb y) 0 :=
    Fin.ext (by show 128 * t.val + (y 0).val = win0_7.index t (0 : Fin 3) * 128 + 1 * (y 0).val; rw [e0]; omega)
  have h1 : (⟨(y 1).val, (y 1).isLt⟩ : Fin 25) = (((View.whole main_v1).slice ((win0 7).rect t)).emb y) 1 :=
    Fin.ext (by show (y 1).val = win0_7.index t (1 : Fin 3) * 25 + 1 * (y 1).val; rw [e1]; omega)
  have h2 : (⟨(y 2).val, (y 2).isLt⟩ : Fin 5) = (((View.whole main_v1).slice ((win0 7).rect t)).emb y) 2 :=
    Fin.ext (by show (y 2).val = win0_7.index t (2 : Fin 3) * 5 + 1 * (y 2).val; rw [e2]; omega)
  rw [h0, h1, h2]
  rfl

/-! ## The 64 blocks cover the array -/

/-- An index of the array is in point `t`'s block iff each coordinate is in the block's range on its axis. -/
theorem mem_blk (t : Fin cfg0.N) (i : S8192x25x5.Idx) :
    i ∈ ((cfg0.win 7).blk t).view.set
      ↔ ∀ a : Fin 3, win0_7.index t a * S128x25x5.size a ≤ (i a).val ∧ (i a).val < win0_7.index t a * S128x25x5.size a + S128x25x5.size a := by
  show i ∈ ((View.whole main_v1).slice (win0_7.rect t)).set ↔ _
  rw [View.set_slice_whole, Rect.mem_set_unit]
  exact Iff.rfl

/-- Batch row `r` lies in the block of point `r / 128`. -/
theorem cover (i : S8192x25x5.Idx) : ∃ t : Fin cfg0.N, (cfg0.win 7).flush t = true ∧ i ∈ ((cfg0.win 7).blk t).view.set := by
  have hi0 : (i 0).val < 8192 := (i 0).isLt
  have hi1 : (i 1).val < 25 := (i 1).isLt
  have hi2 : (i 2).val < 5 := (i 2).isLt
  have hN : cfg0.N = 64 := N_0
  let t : Fin cfg0.N := ⟨(i 0).val / 128, by rw [hN]; omega⟩
  obtain ⟨-, -, -, e0, e1, e2, -⟩ := idx_facts t
  have e0' : win0_7.index t (0 : Fin 3) = (i 0).val / 128 := e0
  refine ⟨t, flush0_7 t, ?_⟩
  rw [mem_blk]
  intro a
  match a with
  | ⟨0, _⟩ =>
    show win0_7.index t (0 : Fin 3) * 128 ≤ (i 0).val ∧ (i 0).val < win0_7.index t (0 : Fin 3) * 128 + 128
    rw [e0']; omega
  | ⟨1, _⟩ =>
    show win0_7.index t (1 : Fin 3) * 25 ≤ (i 1).val ∧ (i 1).val < win0_7.index t (1 : Fin 3) * 25 + 25
    rw [e1]; omega
  | ⟨2, _⟩ =>
    show win0_7.index t (2 : Fin 3) * 5 ≤ (i 2).val ∧ (i 2).val < win0_7.index t (2 : Fin 3) * 5 + 5
    rw [e2]; omega

/-- So the result array ends holding the specification. -/
theorem final (c : Dev nD) : (dats m 0 c).arrAt 7 cfg0.N = result m c :=
  (dats m 0 c).arrAt_eq_of_cover 7 (result m c) (fun t _ => flushed_eq m c t) cover

/-- The kernel's run, read: the result array at the specification of the arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Whole

end
-- ==== Proof.RefValue.lean ====
/-
  What the reference computes, entry by entry: the row function of RowSpec at every (batch, point, output).

  The reference works on whole arrays; each stage is read at an index through the operations before it. The channel
  weights, the bias table and the two channel vectors are repeated along the axes they lack; the two means keep a
  trailing unit axis; the final product contracts the channel axis against the rows of the weight matrix.
-/
import proofs.«172448_j59674275610776_1_alg».proof.Proof.Gen.ReferenceIdeal.Read
import proofs.«172448_j59674275610776_1_alg».proof.Proof.RowSpec

noncomputable section

namespace Cert.ReferenceIdeal.RefValue

open Cert.ReferenceIdeal Cert.ReferenceIdeal.Gen Cert.ReferenceIdeal.Read Idealize.ShloMosaic Idealize.ShloMosaic.ValueIdx
open Cert.RowSpec

variable (X : (⟨S8192x25x256, .f32⟩ : BufTy).Contents (Elt Ideal)) (W : (⟨S25x256x256, .f32⟩ : BufTy).Contents (Elt Ideal))
  (B : (⟨S25x256, .f32⟩ : BufTy).Contents (Elt Ideal)) (Ga Be : (⟨S256, .f32⟩ : BufTy).Contents (Elt Ideal))
  (LW : (⟨S5x256, .f32⟩ : BufTy).Contents (Elt Ideal)) (LB : (⟨S5, .f32⟩ : BufTy).Contents (Elt Ideal))

/-! ## Where each repeated or reduced array is read -/

theorem at_weights (b : Fin 8192) (p : Fin 25) (c : Fin 256) : idx_main_v1 (idx_main_v2 (ix3 b p c)) = ix2 p c :=
  funext fun a => Fin.ext (by match a with | ⟨0, _⟩ => rfl | ⟨1, _⟩ => rfl)

theorem at_weight_row (p : Fin 25) (c k : Fin 256) : idx_main_v0 (ix2 p c) k = ix3 p c k :=
  funext fun a => Fin.ext (by match a with | ⟨0, _⟩ => rfl | ⟨1, _⟩ => rfl | ⟨2, _⟩ => rfl)

theorem at_bias (b : Fin 8192) (p : Fin 25) (c : Fin 256) : idx_main_v4 (idx_main_v5 (ix3 b p c)) = ix2 p c :=
  funext fun a => Fin.ext (by match a with | ⟨0, _⟩ => rfl | ⟨1, _⟩ => rfl)

theorem at_sum1 (b : Fin 8192) (p : Fin 25) (k : Fin 256) : idx_main_v7 (idx_main_v8 (ix3 b p (0 : Fin 1))) k = ix3 b p k :=
  funext fun a => Fin.ext (by match a with | ⟨0, _⟩ => rfl | ⟨1, _⟩ => rfl | ⟨2, _⟩ => rfl)

theorem at_sum2 (b : Fin 8192) (p : Fin 25) (k : Fin 256) : idx_main_v14 (idx_main_v15 (ix3 b p (0 : Fin 1))) k = ix3 b p k :=
  funext fun a => Fin.ext (by match a with | ⟨0, _⟩ => rfl | ⟨1, _⟩ => rfl | ⟨2, _⟩ => rfl)

theorem at_col1 (b : Fin 8192) (p : Fin 25) (c : Fin 256) : idx_main_v11 (ix3 b p c) = ix3 b p (0 : Fin 1) :=
  funext fun a => Fin.ext (by match a with | ⟨0, _⟩ => rfl | ⟨1, _⟩ => rfl | ⟨2, _⟩ => rfl)

theorem at_col2 (b : Fin 8192) (p : Fin 25) (c : Fin 256) : idx_main_v18 (ix3 b p c) = ix3 b p (0 : Fin 1) :=
  funext fun a => Fin.ext (by match a with | ⟨0, _⟩ => rfl | ⟨1, _⟩ => rfl | ⟨2, _⟩ => rfl)

theorem at_col3 (b : Fin 8192) (p : Fin 25) (c : Fin 256) : idx_main_v23 (ix3 b p c) = ix3 b p (0 : Fin 1) :=
  funext fun a => Fin.ext (by match a with | ⟨0, _⟩ => rfl | ⟨1, _⟩ => rfl | ⟨2, _⟩ => rfl)

theorem at_gamma (b : Fin 8192) (p : Fin 25) (c : Fin 256) : idx_main_v25 (idx_main_v26 (ix3 b p c)) = ix1 c :=
  funext fun a => Fin.ext (by match a with | ⟨0, _⟩ => rfl)

theorem at_beta (b : Fin 8192) (p : Fin 25) (c : Fin 256) : idx_main_v28 (idx_main_v29 (ix3 b p c)) = ix1 c :=
  funext fun a => Fin.ext (by match a with | ⟨0, _⟩ => rfl)

theorem at_lhs (b : Fin 8192) (p : Fin 25) (j : Fin 5) (k : Fin 256) : lidx_main_v33 (ix3 b p j) k = ix3 b p k :=
  funext fun a => Fin.ext (by match a with | ⟨0, _⟩ => rfl | ⟨1, _⟩ => rfl | ⟨2, _⟩ => rfl)

theorem at_rhs (b : Fin 8192) (p : Fin 25) (j : Fin 5) (k : Fin 256) : ridx_main_v33 (ix3 b p j) k = ix2 j k :=
  funext fun a => Fin.ext (by match a with | ⟨0, _⟩ => rfl | ⟨1, _⟩ => rfl)

theorem at_out_bias (b : Fin 8192) (p : Fin 25) (j : Fin 5) : idx_main_v34 (idx_main_v35 (ix3 b p j)) = ix1 j :=
  funext fun a => Fin.ext (by match a with | ⟨0, _⟩ => rfl)

/-! ## The stages -/

/-- The first affine map at (b, p, c). -/
theorem affine_apply (b : Fin 8192) (p : Fin 25) (c : Fin 256) :
    val_main_v6 (F := Ideal) X W B (ix3 b p c)
      = affine (fun k => X (ix3 b p k)) (rowsum W p) (fun k => B (ix2 p k)) c := by
  rw [val_main_v6_apply, val_main_v3_apply, val_main_v5_apply, val_main_v4_apply, val_main_v2_apply, val_main_v1_apply,
    val_main_v0_apply, val_main_cst_apply, at_weights, at_bias]
  simp only [at_weight_row, Ideal.ofBits_def, Ideal.ofBits_zero_f32, zero_add, Ideal.mulf_def, Ideal.addf_def]
  rfl

/-- The row mean of the affine map, kept at (b, p, 0). -/
theorem mean_apply (b : Fin 8192) (p : Fin 25) :
    val_main_v10 (F := Ideal) X W B (ix3 b p (0 : Fin 1))
      = mean (affine (fun k => X (ix3 b p k)) (rowsum W p) (fun k => B (ix2 p k))) := by
  rw [val_main_v10_apply, val_main_v8_apply, val_main_v7_apply, val_main_v9_apply, val_main_cst_1_apply, val_main_cst_0_apply]
  simp only [at_sum1, affine_apply, Ideal.ofBits_def, Ideal.ofBits_zero_f32, zero_add, Ideal.hostDivf_def]
  rfl

/-- The deviation from the row mean at (b, p, c): the reference computes it twice, once for the variance and once for
    the normalised row. -/
theorem centred_apply (b : Fin 8192) (p : Fin 25) (c : Fin 256) :
    val_main_v12 (F := Ideal) X W B (ix3 b p c)
      = centred (affine (fun k => X (ix3 b p k)) (rowsum W p) (fun k => B (ix2 p k))) c := by
  rw [val_main_v12_apply, val_main_v11_apply, at_col1, mean_apply, affine_apply]
  rfl

theorem centred_apply' (b : Fin 8192) (p : Fin 25) (c : Fin 256) :
    val_main_v19 (F := Ideal) X W B (ix3 b p c)
      = centred (affine (fun k => X (ix3 b p k)) (rowsum W p) (fun k => B (ix2 p k))) c := by
  rw [val_main_v19_apply, val_main_v18_apply, at_col2, mean_apply, affine_apply]
  rfl

/-- The reciprocal root of the row's variance plus the small constant, kept at (b, p, 0). -/
theorem scale_apply (b : Fin 8192) (p : Fin 25) :
    val_main_v22 (F := Ideal) X W B (ix3 b p (0 : Fin 1))
      = Ideal.rsqrt (mean (fun k => centred (affine (fun k => X (ix3 b p k)) (rowsum W p) (fun k => B (ix2 p k))) k
          * centred (affine (fun k => X (ix3 b p k)) (rowsum W p) (fun k => B (ix2 p k))) k) + wEps) := by
  rw [val_main_v22_apply, val_main_v21_apply, val_main_v17_apply, val_main_v15_apply, val_main_v14_apply, val_main_v16_apply,
    val_main_cst_3_apply, val_main_v20_apply, val_main_cst_4_apply, val_main_cst_2_apply]
  simp only [at_sum2, val_main_v13_apply, centred_apply, Ideal.ofBits_def, Ideal.ofBits_zero_f32, zero_add, Ideal.hostDivf_def,
    Ideal.hostUnary_rsqrt_def, Ideal.addf_def, Ideal.mulf_def]
  rfl

/-- The clipped row at (b, p, c). -/
theorem hidden_apply (b : Fin 8192) (p : Fin 25) (c : Fin 256) :
    val_main_v32 (F := Ideal) X W B Ga Be (ix3 b p c)
      = hidden (fun k => X (ix3 b p k)) (rowsum W p) (fun k => B (ix2 p k)) (fun k => Ga (ix1 k)) (fun k => Be (ix1 k)) c := by
  rw [val_main_v32_apply, val_main_v31_apply, val_main_v30_apply, val_main_v27_apply, val_main_v24_apply, val_main_v23_apply,
    val_main_v29_apply, val_main_v28_apply, val_main_v26_apply, val_main_v25_apply, val_main_call0_v0_apply,
    val_main_call0_cst_apply, at_col3, at_gamma, at_beta, scale_apply, centred_apply']
  rfl

/-- One entry of the reference's result. -/
theorem out_apply (b : Fin 8192) (p : Fin 25) (j : Fin 5) :
    val_main_v36 (F := Ideal) X W B Ga Be LW LB (ix3 b p j) = outAt X W B Ga Be LW LB b p j := by
  rw [val_main_v36_apply, val_main_v33_apply, val_main_v35_apply, val_main_v34_apply, at_out_bias]
  simp only [at_lhs, at_rhs, hidden_apply]
  rfl

/-- The reference's result array is the specification's. -/
theorem result_eq : val_main_v36 (F := Ideal) X W B Ga Be LW LB = G X W B Ga Be LW LB := by
  funext i
  obtain ⟨b, p, j, rfl⟩ : ∃ (b : Fin 8192) (p : Fin 25) (j : Fin 5), i = ix3 b p j := ⟨i 0, i 1, i 2, eq_ix3 i⟩
  exact out_apply X W B Ga Be LW LB b p j

end Cert.ReferenceIdeal.RefValue

end
-- ==== Proof.lean ====
/-
  The kernel against its reference, over the extended reals.

  Both programs compute, for every batch row `b`, point `p` and output `j`,

      out(b, p, j) = Σ_c h(b, p, c) · lin_w(j, c) + lin_b(j),
      h = max(x + (normalise(x · w + bias) · γ + β), 0),

  where `w(p, c)` is the sum of row `c` of slice `p` of the weight tensor, and `normalise` subtracts a row's mean over its
  256 channels and multiplies by the reciprocal square root of the mean squared deviation plus a small constant
  (RowSpec.lean states this as one function of the argument arrays).

  The kernel computes it tile by tile: 64 grid points, each on 128 batch rows; inside a tile the small operands are
  repeated along the axes they lack, (batch row, point) is flattened to a row of a [3200, 256] matrix, and the last
  step is a matrix product with the transposed final weights whose operands pass through a narrower float format
  (the identity on extended reals). The reference computes it on whole arrays, its last step a contraction of the
  channel axis. Entry by entry both are the same sums of the same terms in the same order, with the same three float
  constants, so no algebraic law beyond reading each operation at an index is needed, and the finiteness of the
  inputs is never used.

  The kernel's value: KernelTile.lean (the body's stored tile, entry by entry), KernelArray.lean (each point writes its
  block of the specification, and the blocks cover the array). The reference's value: RefValue.lean. The kernel's
  idealization rewrote nothing, so it preserves the kernel trivially.
-/
import proofs.«172448_j59674275610776_1_alg».proof.Defs
import proofs.«172448_j59674275610776_1_alg».proof.Proof.Gen.Kernel
import proofs.«172448_j59674275610776_1_alg».proof.Proof.Gen.Kernel.Skeleton
import proofs.«172448_j59674275610776_1_alg».proof.Proof.Gen.Kernel.Launch
import proofs.«172448_j59674275610776_1_alg».proof.Proof.Gen.Kernel.Points
import proofs.«172448_j59674275610776_1_alg».proof.Proof.Gen.Kernel.Frame
import proofs.«172448_j59674275610776_1_alg».proof.Proof.Gen.KernelIdeal
import proofs.«172448_j59674275610776_1_alg».proof.Proof.Gen.KernelIdeal.Skeleton
import proofs.«172448_j59674275610776_1_alg».proof.Proof.Gen.KernelIdeal.Launch
import proofs.«172448_j59674275610776_1_alg».proof.Proof.Gen.KernelIdeal.Points
import proofs.«172448_j59674275610776_1_alg».proof.Proof.Gen.KernelIdeal.Frame
import proofs.«172448_j59674275610776_1_alg».proof.Proof.Gen.ReferenceIdeal
import proofs.«172448_j59674275610776_1_alg».proof.Proof.Gen.Pre_finite_inputs
import proofs.«172448_j59674275610776_1_alg».proof.Proof.Gen.KernelIdeal.Value
import proofs.«172448_j59674275610776_1_alg».proof.Proof.Gen.ReferenceIdeal.Run
import proofs.«172448_j59674275610776_1_alg».proof.Proof.Gen.ReferenceIdeal.Read
import proofs.«172448_j59674275610776_1_alg».proof.Proof.KernelArray
import proofs.«172448_j59674275610776_1_alg».proof.Proof.RefValue
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the seven arguments, the kernel's result array ends at the specification of its
    arguments and the reference's at the specification of its own: one array. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, Cert.ReferenceIdeal.RefValue.result_eq]
  obtain ⟨h0, h1, h2, h3, h4, h5, h6⟩ := hagree c
  rw [h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
